-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x65536x2 : Shape := ⟨3, ![4, 65536, 2]⟩
abbrev S4x65536x32 : Shape := ⟨3, ![4, 65536, 32]⟩
abbrev S4x65536x8 : Shape := ⟨3, ![4, 65536, 8]⟩
abbrev S7x32 : Shape := ⟨2, ![7, 32]⟩
abbrev S32 : Shape := ⟨1, ![32]⟩
abbrev S_ : Shape := ⟨0, ![]⟩

class Facts : Prop where
  bcast_S_S4x65536x2 : S_.BroadcastsInDim S4x65536x2 (![] : Fin 0 → Fin S4x65536x2.rank)
  reducesTo_S4x65536x2_S_d0_1_2 : S4x65536x2.ReducesTo [0, 1, 2] S_
  h_S_ : 0 < S_.numel
  bcast_S_S4x65536x32 : S_.BroadcastsInDim S4x65536x32 (![] : Fin 0 → Fin S4x65536x32.rank)
  reducesTo_S4x65536x32_S_d0_1_2 : S4x65536x32.ReducesTo [0, 1, 2] S_
  bcast_S_S7x32 : S_.BroadcastsInDim S7x32 (![] : Fin 0 → Fin S7x32.rank)
  reducesTo_S7x32_S_d0_1 : S7x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  main_v18

def fn {F : FTy → Type} [FloatOps F] (main_arg0 : FVec F S4x65536x2 .f32) (main_arg1 : FVec F S4x65536x32 .f32) (main_arg2 : IVec S4x65536x8 32) (main_arg3 : FVec F S7x32 .f32) (main_arg4 : FVec F S32 .f32) : IVec S_ 1 :=
  let main_v0 : FVec F S4x65536x2 .f32 := Host.absf main_arg0
  let main_cst : FVec F S_ .f32 := constant S_ .f32 0x7F800000#32
  let main_v1 : FVec F S4x65536x2 .f32 := broadcastInDim S4x65536x2 ![] bcast_S_S4x65536x2 main_cst
  let main_v2 : IVec S4x65536x2 1 := cmpf .olt main_v0 main_v1
  let main_c : IVec S_ 1 := constantI S_ 1 1#1
  let main_v3 : IVec S_ 1 := (fun x v => Host.reduce IntOp.andi x v reducesTo_S4x65536x2_S_d0_1_2 h_S_) main_v2 main_c
  let main_v4 : FVec F S4x65536x32 .f32 := Host.absf main_arg1
  let main_cst_0 : FVec F S_ .f32 := constant S_ .f32 0x7F800000#32
  let main_v5 : FVec F S4x65536x32 .f32 := broadcastInDim S4x65536x32 ![] bcast_S_S4x65536x32 main_cst_0
  let main_v6 : IVec S4x65536x32 1 := cmpf .olt main_v4 main_v5
  let main_c_1 : IVec S_ 1 := constantI S_ 1 1#1
  let main_v7 : IVec S_ 1 := (fun x v => Host.reduce IntOp.andi x v reducesTo_S4x65536x32_S_d0_1_2 h_S_) main_v6 main_c_1
  let main_v8 : IVec S_ 1 := andi main_v3 main_v7
  let main_v9 : FVec F S7x32 .f32 := Host.absf main_arg3
  let main_cst_2 : FVec F S_ .f32 := constant S_ .f32 0x7F800000#32
  let main_v10 : FVec F S7x32 .f32 := broadcastInDim S7x32 ![] bcast_S_S7x32 main_cst_2
  let main_v11 : IVec S7x32 1 := cmpf .olt main_v9 main_v10
  let main_c_3 : IVec S_ 1 := constantI S_ 1 1#1
  let main_v12 : IVec S_ 1 := (fun x v => Host.reduce IntOp.andi x v reducesTo_S7x32_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_v13 main_v16
-- ==== Kernel.lean ====
abbrev S4x65536x2 : Shape := ⟨3, ![4, 65536, 2]⟩
abbrev S4x65536x32 : Shape := ⟨3, ![4, 65536, 32]⟩
abbrev S4x65536x8 : Shape := ⟨3, ![4, 65536, 8]⟩
abbrev S7x32 : Shape := ⟨2, ![7, 32]⟩
abbrev S32 : Shape := ⟨1, ![32]⟩
abbrev S4 : Shape := ⟨1, ![4]⟩
abbrev S4x1x1 : Shape := ⟨3, ![4, 1, 1]⟩
abbrev S_ : Shape := ⟨0, ![]⟩
abbrev S4x65536x8x1 : Shape := ⟨4, ![4, 65536, 8, 1]⟩
abbrev S4x65536x8x2 : Shape := ⟨4, ![4, 65536, 8, 2]⟩
abbrev S4x65536x8x32 : Shape := ⟨4, ![4, 65536, 8, 32]⟩
abbrev S4x65536x8x64 : Shape := ⟨4, ![4, 65536, 8, 64]⟩
abbrev S1x1024x2 : Shape := ⟨3, ![1, 1024, 2]⟩
abbrev S1x1024x8x2 : Shape := ⟨4, ![1, 1024, 8, 2]⟩
abbrev S1x1024x8x32 : Shape := ⟨4, ![1, 1024, 8, 32]⟩
abbrev S1x1024x8x64 : Shape := ⟨4, ![1, 1024, 8, 64]⟩
abbrev S1024x2 : Shape := ⟨2, ![1024, 2]⟩
abbrev S1024x8x2 : Shape := ⟨3, ![1024, 8, 2]⟩
abbrev S1024x8x32 : Shape := ⟨3, ![1024, 8, 32]⟩
abbrev S1024x1x2 : Shape := ⟨3, ![1024, 1, 2]⟩
abbrev S1024x8 : Shape := ⟨2, ![1024, 8]⟩
abbrev S1024x8x1 : Shape := ⟨3, ![1024, 8, 1]⟩
abbrev S1024x8x7 : Shape := ⟨3, ![1024, 8, 7]⟩
abbrev S8192x7 : Shape := ⟨2, ![8192, 7]⟩
abbrev S8192x32 : Shape := ⟨2, ![8192, 32]⟩
abbrev S1x1x32 : Shape := ⟨3, ![1, 1, 32]⟩
abbrev S1024x8x64 : Shape := ⟨3, ![1024, 8, 64]⟩

abbrev nBuf : Space → Nat
  | .hbm => 46
  | .vmem => 10
  | .smem => 0
  | _ => 0

abbrev bufTy : (tb : Table) → Fin (tcTables nBuf tb) → BufTy
  | .hbm, ⟨0, _⟩ => ⟨S4x65536x2, .f32⟩
  | .hbm, ⟨1, _⟩ => ⟨S4x65536x32, .f32⟩
  | .hbm, ⟨2, _⟩ => ⟨S4x65536x8, .i32⟩
  | .hbm, ⟨3, _⟩ => ⟨S7x32, .f32⟩
  | .hbm, ⟨4, _⟩ => ⟨S32, .f32⟩
  | .hbm, ⟨5, _⟩ => ⟨S4, .i32⟩
  | .hbm, ⟨6, _⟩ => ⟨S4x1x1, .i32⟩
  | .hbm, ⟨7, _⟩ => ⟨S_, .i32⟩
  | .hbm, ⟨8, _⟩ => ⟨S4x1x1, .i32⟩
  | .hbm, ⟨9, _⟩ => ⟨S4x1x1, .i1⟩
  | .hbm, ⟨10, _⟩ => ⟨S_, .i32⟩
  | .hbm, ⟨11, _⟩ => ⟨S4x1x1, .i32⟩
  | .hbm, ⟨12, _⟩ => ⟨S4x1x1, .i32⟩
  | .hbm, ⟨13, _⟩ => ⟨S4x1x1, .i32⟩
  | .hbm, ⟨14, _⟩ => ⟨S_, .i32⟩
  | .hbm, ⟨15, _⟩ => ⟨S4x65536x8, .i32⟩
  | .hbm, ⟨16, _⟩ => ⟨S4x65536x8, .i1⟩
  | .hbm, ⟨17, _⟩ => ⟨S_, .i32⟩
  | .hbm, ⟨18, _⟩ => ⟨S4x65536x8, .i32⟩
  | .hbm, ⟨19, _⟩ => ⟨S4x65536x8, .i32⟩
  | .hbm, ⟨20, _⟩ => ⟨S4x65536x8, .i32⟩
  | .hbm, ⟨21, _⟩ => ⟨S4x65536x8, .i32⟩
  | .hbm, ⟨22, _⟩ => ⟨S4x65536x8x1, .i32⟩
  | .hbm, ⟨23, _⟩ => ⟨S4x65536x8x1, .i32⟩
  | .hbm, ⟨24, _⟩ => ⟨S4x65536x8x2, .i32⟩
  | .hbm, ⟨25, _⟩ => ⟨S4x65536x8x2, .f32⟩
  | .hbm, ⟨26, _⟩ => ⟨S_, .i32⟩
  | .hbm, ⟨27, _⟩ => ⟨S4x1x1, .i32⟩
  | .hbm, ⟨28, _⟩ => ⟨S4x1x1, .i1⟩
  | .hbm, ⟨29, _⟩ => ⟨S_, .i32⟩
  | .hbm, ⟨30, _⟩ => ⟨S4x1x1, .i32⟩
  | .hbm, ⟨31, _⟩ => ⟨S4x1x1, .i32⟩
  | .hbm, ⟨32, _⟩ => ⟨S4x1x1, .i32⟩
  | .hbm, ⟨33, _⟩ => ⟨S_, .i32⟩
  | .hbm, ⟨34, _⟩ => ⟨S4x65536x8, .i32⟩
  | .hbm, ⟨35, _⟩ => ⟨S4x65536x8, .i1⟩
  | .hbm, ⟨36, _⟩ => ⟨S_, .i32⟩
  | .hbm, ⟨37, _⟩ => ⟨S4x65536x8, .i32⟩
  | .hbm, ⟨38, _⟩ => ⟨S4x65536x8, .i32⟩
  | .hbm, ⟨39, _⟩ => ⟨S4x65536x8, .i32⟩
  | .hbm, ⟨40, _⟩ => ⟨S4x65536x8, .i32⟩
  | .hbm, ⟨41, _⟩ => ⟨S4x65536x8x1, .i32⟩
  | .hbm, ⟨42, _⟩ => ⟨S4x65536x8x1, .i32⟩
  | .hbm, ⟨43, _⟩ => ⟨S4x65536x8x2, .i32⟩
  | .hbm, ⟨44, _⟩ => ⟨S4x65536x8x32, .f32⟩
  | .hbm, ⟨45, _⟩ => ⟨S4x65536x8x64, .f32⟩
  | .local _ .vmem, ⟨0, _⟩ => ⟨S1x1024x2, .f32⟩
  | .local _ .vmem, ⟨1, _⟩ => ⟨S1x1024x2, .f32⟩
  | .local _ .vmem, ⟨2, _⟩ => ⟨S1x1024x8x2, .f32⟩
  | .local _ .vmem, ⟨3, _⟩ => ⟨S1x1024x8x2, .f32⟩
  | .local _ .vmem, ⟨4, _⟩ => ⟨S1x1024x8x32, .f32⟩
  | .local _ .vmem, ⟨5, _⟩ => ⟨S1x1024x8x32, .f32⟩
  | .local _ .vmem, ⟨6, _⟩ => ⟨S7x32, .f32⟩
  | .local _ .vmem, ⟨7, _⟩ => ⟨S32, .f32⟩
  | .local _ .vmem, ⟨8, _⟩ => ⟨S1x1024x8x64, .f32⟩
  | .local _ .vmem, ⟨9, _⟩ => ⟨S1x1024x8x64, .f32⟩
  | _, _ => ⟨S4x65536x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_3 : Ref sig .tc := ⟨.hbm, 26, rfl⟩
abbrev main_v17 : Ref sig .tc := ⟨.hbm, 27, rfl⟩
abbrev main_v18 : Ref sig .tc := ⟨.hbm, 28, rfl⟩
abbrev main_c_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_5 : Ref sig .tc := ⟨.hbm, 33, rfl⟩
abbrev main_v22 : Ref sig .tc := ⟨.hbm, 34, rfl⟩
abbrev main_v23 : Ref sig .tc := ⟨.hbm, 35, rfl⟩
abbrev main_c_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1024x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x8x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x8x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S7x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x8x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S4_S4x1x1_0 : S4.BroadcastsInDim S4x1x1 (![0] : Fin 1 → Fin S4x1x1.rank)
  bcast_S_S4x1x1 : S_.BroadcastsInDim S4x1x1 (![] : Fin 0 → Fin S4x1x1.rank)
  bcast_S_S4x65536x8 : S_.BroadcastsInDim S4x65536x8 (![] : Fin 0 → Fin S4x65536x8.rank)
  bcast_S4x1x1_S4x65536x8_0_1_2 : S4x1x1.BroadcastsInDim S4x65536x8 (![0, 1, 2] : Fin 3 → Fin S4x65536x8.rank)
  bcast_S4x65536x8_S4x65536x8x1_0_1_2 : S4x65536x8.BroadcastsInDim S4x65536x8x1 (![0, 1, 2] : Fin 3 → Fin S4x65536x8x1.rank)
  concatenates_S4x65536x8x1_S4x65536x8x1_S4x65536x8x2_d3 : Shape.Concatenates [S4x65536x8x1, S4x65536x8x1] S4x65536x8x2 3
  inb_S1x1024x2_S1x1024x2_0_0_0 : ∀ a, (![0, 0, 0] : Fin 3 → Nat) a + S1x1024x2.size a ≤ S1x1024x2.size a
  h_S1x1024x2 : 0 < S1x1024x2.numel
  shapeCasts_S1x1024x2_S1024x2 : S1x1024x2.ShapeCasts S1024x2
  inb_S1x1024x8x2_S1x1024x8x2_0_0_0_0 : ∀ a, (![0, 0, 0, 0] : Fin 4 → Nat) a + S1x1024x8x2.size a ≤ S1x1024x8x2.size a
  h_S1x1024x8x2 : 0 < S1x1024x8x2.numel
  shapeCasts_S1x1024x8x2_S1024x8x2 : S1x1024x8x2.ShapeCasts S1024x8x2
  inb_S1x1024x8x32_S1x1024x8x32_0_0_0_0 : ∀ a, (![0, 0, 0, 0] : Fin 4 → Nat) a + S1x1024x8x32.size a ≤ S1x1024x8x32.size a
  h_S1x1024x8x32 : 0 < S1x1024x8x32.numel
  shapeCasts_S1x1024x8x32_S1024x8x32 : S1x1024x8x32.ShapeCasts S1024x8x32
  shapeCasts_S1024x2_S1024x1x2 : S1024x2.ShapeCasts S1024x1x2
  shapeCasts_S1024x1x2_S1024x1x2 : S1024x1x2.ShapeCasts S1024x1x2
  broadcasts_S1024x1x2_S1024x8x2 : S1024x1x2.Broadcasts S1024x8x2
  reduces_S1024x8x2_S1024x8 : S1024x8x2.Reduces [2] S1024x8
  shapeCasts_S1024x8_S1024x8x1 : S1024x8.ShapeCasts S1024x8x1
  concatenates_S1024x8x2_S1024x8x2_S1024x8x2_S1024x8x1_S1024x8x7_d2 : Shape.Concatenates [S1024x8x2, S1024x8x2, S1024x8x2, S1024x8x1] S1024x8x7 2
  shapeCasts_S1024x8x7_S8192x7 : S1024x8x7.ShapeCasts S8192x7
  bitsLt_bf16_f32 : FTy.bits .bf16 < FTy.bits .f32
  inb_S7x32_S7x32_0_0 : ∀ a, (![0, 0] : Fin 2 → Nat) a + S7x32.size a ≤ S7x32.size a
  h_S7x32 : 0 < S7x32.numel
  shapeCasts_S8192x32_S1024x8x32 : S8192x32.ShapeCasts S1024x8x32
  inb_S32_S32_0 : ∀ a, (![0] : Fin 1 → Nat) a + S32.size a ≤ S32.size a
  h_S32 : 0 < S32.numel
  shapeCasts_S32_S1x1x32 : S32.ShapeCasts S1x1x32
  broadcasts_S1x1x32_S1024x8x32 : S1x1x32.Broadcasts S1024x8x32
  concatenates_S1024x8x32_S1024x8x32_S1024x8x64_d2 : Shape.Concatenates [S1024x8x32, S1024x8x32] S1024x8x64 2
  inb_S1x1024x8x64_S1x1024x8x64_0_0_0_0 : ∀ a, (![0, 0, 0, 0] : Fin 4 → Nat) a + S1x1024x8x64.size a ≤ S1x1024x8x64.size a
  h_S1x1024x8x64 : 0 < S1x1024x8x64.numel
  shapeCasts_S1x1024x8x64_S1024x8x64 : S1x1024x8x64.ShapeCasts S1024x8x64
  shapeCasts_S1024x8x64_S1x1024x8x64 : S1024x8x64.ShapeCasts S1x1024x8x64
  gather_S4x65536x2_S4x65536x8x2_S4x65536x8x2_3_01_n_n_01_3_112_wf : GatherDims.WF S4x65536x2 S4x65536x8x2 S4x65536x8x2 [3] [0, 1] [] [0, 1] [] 3 ![1, 1, 2]
  gather_S4x65536x32_S4x65536x8x2_S4x65536x8x32_3_01_n_n_01_3_1132_wf : GatherDims.WF S4x65536x32 S4x65536x8x2 S4x65536x8x32 [3] [0, 1] [] [0, 1] [] 3 ![1, 1, 32]
  dot_S8192x7_S7x32_S8192x32_1_0_0_1_n_n_wf : DotDims.WF S8192x7 S7x32 S8192x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2.size a ≤ S4x65536x2.size a
  hwx0_0 : ∀ i : grid0.Coords, EltTy.bits .f32 = 32 ∨ (Rect.block (s := S4x65536x2) S1x1024x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x8x2.size a ≤ S4x65536x8x2.size a
  hwx0_1 : ∀ i : grid0.Coords, EltTy.bits .f32 = 32 ∨ (Rect.block (s := S4x65536x8x2) S1x1024x8x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x8x32.size a ≤ S4x65536x8x32.size a
  hwx0_2 : ∀ i : grid0.Coords, EltTy.bits .f32 = 32 ∨ (Rect.block (s := S4x65536x8x32) S1x1024x8x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S7x32.size a ≤ S7x32.size a
  hwx0_3 : ∀ i : grid0.Coords, EltTy.bits .f32 = 32 ∨ (Rect.block (s := S7x32) S7x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32.size a ≤ S32.size a
  hwx0_4 : ∀ i : grid0.Coords, EltTy.bits .f32 = 32 ∨ (Rect.block (s := S32) S32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x8x64.size a ≤ S4x65536x8x64.size a
  hwx0_5 : ∀ i : grid0.Coords, EltTy.bits .f32 = 32 ∨ (Rect.block (s := S4x65536x8x64) S1x1024x8x64.size (cc0_transform_5 i) (hinb0_5 i)).WholeWords (EltTy.packing .f32)

variable [Facts₀]

def gather_S4x65536x2_S4x65536x8x2_S4x65536x8x2_3_01_n_n_01_3_112 : GatherDims S4x65536x2 S4x65536x8x2 S4x65536x8x2 where
  offsetDims := [3]
  collapsedSliceDims := [0, 1]
  operandBatchingDims := []
  startIndicesBatchingDims := []
  startIndexMap := [0, 1]
  indexVectorDim := 3
  sliceSizes := ![1, 1, 2]
  wf := gather_S4x65536x2_S4x65536x8x2_S4x65536x8x2_3_01_n_n_01_3_112_wf
def gather_S4x65536x32_S4x65536x8x2_S4x65536x8x32_3_01_n_n_01_3_1132 : GatherDims S4x65536x32 S4x65536x8x2 S4x65536x8x32 where
  offsetDims := [3]
  collapsedSliceDims := [0, 1]
  operandBatchingDims := []
  startIndicesBatchingDims := []
  startIndexMap := [0, 1]
  indexVectorDim := 3
  sliceSizes := ![1, 1, 32]
  wf := gather_S4x65536x32_S4x65536x8x2_S4x65536x8x32_3_01_n_n_01_3_1132_wf
def dot_S8192x7_S7x32_S8192x32_1_0_0_1_n_n : DotDims S8192x7 S7x32 S8192x32 where
  lhsContracting := [1]
  rhsContracting := [0]
  lhsNonContracting := [0]
  rhsNonContracting := [1]
  lhsBatch := []
  rhsBatch := []
  wf := dot_S8192x7_S7x32_S8192x32_1_0_0_1_n_n_wf

abbrev win0_0 : Pipeline.Window sig grid0 :=
  Pipeline.Window.ofSpec (Memref.whole main_arg0) S1x1024x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S1x1024x8x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1x1024x8x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S7x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v32) S1x1024x8x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x65536x2 : Shape := ⟨3, ![4, 65536, 2]⟩
abbrev S4x65536x32 : Shape := ⟨3, ![4, 65536, 32]⟩
abbrev S4x65536x8 : Shape := ⟨3, ![4, 65536, 8]⟩
abbrev S7x32 : Shape := ⟨2, ![7, 32]⟩
abbrev S32 : Shape := ⟨1, ![32]⟩
abbrev S4 : Shape := ⟨1, ![4]⟩
abbrev S4x1x1 : Shape := ⟨3, ![4, 1, 1]⟩
abbrev S_ : Shape := ⟨0, ![]⟩
abbrev S4x65536x8x1 : Shape := ⟨4, ![4, 65536, 8, 1]⟩
abbrev S4x65536x8x2 : Shape := ⟨4, ![4, 65536, 8, 2]⟩
abbrev S4x65536x8x32 : Shape := ⟨4, ![4, 65536, 8, 32]⟩
abbrev S4x65536x1x2 : Shape := ⟨4, ![4, 65536, 1, 2]⟩
abbrev S4x65536x8x7 : Shape := ⟨4, ![4, 65536, 8, 7]⟩
abbrev S1x1x1x32 : Shape := ⟨4, ![1, 1, 1, 32]⟩
abbrev S4x65536x8x64 : Shape := ⟨4, ![4, 65536, 8, 64]⟩

abbrev nBuf : Space → Nat
  | .hbm => 64
  | .vmem => 0
  | .smem => 0
  | _ => 0

abbrev bufTy : (tb : Table) → Fin (tcTables nBuf tb) → BufTy
  | .hbm, ⟨0, _⟩ => ⟨S4x65536x2, .f32⟩
  | .hbm, ⟨1, _⟩ => ⟨S4x65536x32, .f32⟩
  | .hbm, ⟨2, _⟩ => ⟨S4x65536x8, .i32⟩
  | .hbm, ⟨3, _⟩ => ⟨S7x32, .f32⟩
  | .hbm, ⟨4, _⟩ => ⟨S32, .f32⟩
  | .hbm, ⟨5, _⟩ => ⟨S4, .i32⟩
  | .hbm, ⟨6, _⟩ => ⟨S4x1x1, .i32⟩
  | .hbm, ⟨7, _⟩ => ⟨S_, .i32⟩
  | .hbm, ⟨8, _⟩ => ⟨S4x1x1, .i32⟩
  | .hbm, ⟨9, _⟩ => ⟨S4x1x1, .i1⟩
  | .hbm, ⟨10, _⟩ => ⟨S_, .i32⟩
  | .hbm, ⟨11, _⟩ => ⟨S4x1x1, .i32⟩
  | .hbm, ⟨12, _⟩ => ⟨S4x1x1, .i32⟩
  | .hbm, ⟨13, _⟩ => ⟨S4x1x1, .i32⟩
  | .hbm, ⟨14, _⟩ => ⟨S_, .i32⟩
  | .hbm, ⟨15, _⟩ => ⟨S4x65536x8, .i32⟩
  | .hbm, ⟨16, _⟩ => ⟨S4x65536x8, .i1⟩
  | .hbm, ⟨17, _⟩ => ⟨S_, .i32⟩
  | .hbm, ⟨18, _⟩ => ⟨S4x65536x8, .i32⟩
  | .hbm, ⟨19, _⟩ => ⟨S4x65536x8, .i32⟩
  | .hbm, ⟨20, _⟩ => ⟨S4x65536x8, .i32⟩
  | .hbm, ⟨21, _⟩ => ⟨S4x65536x8, .i32⟩
  | .hbm, ⟨22, _⟩ => ⟨S4x65536x8x1, .i32⟩
  | .hbm, ⟨23, _⟩ => ⟨S4x65536x8x1, .i32⟩
  | .hbm, ⟨24, _⟩ => ⟨S4x65536x8x2, .i32⟩
  | .hbm, ⟨25, _⟩ => ⟨S4x65536x8x2, .f32⟩
  | .hbm, ⟨26, _⟩ => ⟨S4, .i32⟩
  | .hbm, ⟨27, _⟩ => ⟨S4x1x1, .i32⟩
  | .hbm, ⟨28, _⟩ => ⟨S_, .i32⟩
  | .hbm, ⟨29, _⟩ => ⟨S4x1x1, .i32⟩
  | .hbm, ⟨30, _⟩ => ⟨S4x1x1, .i1⟩
  | .hbm, ⟨31, _⟩ => ⟨S_, .i32⟩
  | .hbm, ⟨32, _⟩ => ⟨S4x1x1, .i32⟩
  | .hbm, ⟨33, _⟩ => ⟨S4x1x1, .i32⟩
  | .hbm, ⟨34, _⟩ => ⟨S4x1x1, .i32⟩
  | .hbm, ⟨35, _⟩ => ⟨S_, .i32⟩
  | .hbm, ⟨36, _⟩ => ⟨S4x65536x8, .i32⟩
  | .hbm, ⟨37, _⟩ => ⟨S4x65536x8, .i1⟩
  | .hbm, ⟨38, _⟩ => ⟨S_, .i32⟩
  | .hbm, ⟨39, _⟩ => ⟨S4x65536x8, .i32⟩
  | .hbm, ⟨40, _⟩ => ⟨S4x65536x8, .i32⟩
  | .hbm, ⟨41, _⟩ => ⟨S4x65536x8, .i32⟩
  | .hbm, ⟨42, _⟩ => ⟨S4x65536x8, .i32⟩
  | .hbm, ⟨43, _⟩ => ⟨S4x65536x8x1, .i32⟩
  | .hbm, ⟨44, _⟩ => ⟨S4x65536x8x1, .i32⟩
  | .hbm, ⟨45, _⟩ => ⟨S4x65536x8x2, .i32⟩
  | .hbm, ⟨46, _⟩ => ⟨S4x65536x8x32, .f32⟩
  | .hbm, ⟨47, _⟩ => ⟨S4x65536x1x2, .f32⟩
  | .hbm, ⟨48, _⟩ => ⟨S4x65536x8x2, .f32⟩
  | .hbm, ⟨49, _⟩ => ⟨S4x65536x8x2, .f32⟩
  | .hbm, ⟨50, _⟩ => ⟨S4x65536x8x2, .f32⟩
  | .hbm, ⟨51, _⟩ => ⟨S_, .f32⟩
  | .hbm, ⟨52, _⟩ => ⟨S4x65536x8, .f32⟩
  | .hbm, ⟨53, _⟩ => ⟨S4x65536x8x1, .f32⟩
  | .hbm, ⟨54, _⟩ => ⟨S4x65536x8x1, .f32⟩
  | .hbm, ⟨55, _⟩ => ⟨S4x65536x8x7, .f32⟩
  | .hbm, ⟨56, _⟩ => ⟨S4x65536x8x32, .f32⟩
  | .hbm, ⟨57, _⟩ => ⟨S1x1x1x32, .f32⟩
  | .hbm, ⟨58, _⟩ => ⟨S4x65536x8x32, .f32⟩
  | .hbm, ⟨59, _⟩ => ⟨S4x65536x8x32, .f32⟩
  | .hbm, ⟨60, _⟩ => ⟨S_, .f32⟩
  | .hbm, ⟨61, _⟩ => ⟨S4x65536x8x32, .f32⟩
  | .hbm, ⟨62, _⟩ => ⟨S4x65536x8x32, .f32⟩
  | .hbm, ⟨63, _⟩ => ⟨S4x65536x8x64, .f32⟩
  | _, _ => ⟨S4x65536x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_v19 : Ref sig .tc := ⟨.hbm, 29, rfl⟩
abbrev main_v20 : Ref sig .tc := ⟨.hbm, 30, rfl⟩
abbrev main_c_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_5 : Ref sig .tc := ⟨.hbm, 35, rfl⟩
abbrev main_v24 : Ref sig .tc := ⟨.hbm, 36, rfl⟩
abbrev main_v25 : Ref sig .tc := ⟨.hbm, 37, rfl⟩
abbrev main_c_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_call0_v0 : Ref sig .tc := ⟨.hbm, 50, rfl⟩
abbrev main_call0_cst : Ref sig .tc := ⟨.hbm, 51, rfl⟩
abbrev main_call0_v1 : Ref sig .tc := ⟨.hbm, 52, rfl⟩
abbrev main_call0_v2 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_call1_cst : Ref sig .tc := ⟨.hbm, 60, rfl⟩
abbrev main_call1_v0 : Ref sig .tc := ⟨.hbm, 61, rfl⟩
abbrev main_v43 : Ref sig .tc := ⟨.hbm, 62, rfl⟩
abbrev main_v44 : Ref sig .tc := ⟨.hbm, 63, rfl⟩

abbrev nD : Nat := 1
abbrev τ : Topo := Topo.v7x

variable {F : FTy → Type} [FloatOps F]

class Facts₀ : Prop where
  bcast_S4_S4x1x1_0 : S4.BroadcastsInDim S4x1x1 (![0] : Fin 1 → Fin S4x1x1.rank)
  bcast_S_S4x1x1 : S_.BroadcastsInDim S4x1x1 (![] : Fin 0 → Fin S4x1x1.rank)
  bcast_S_S4x65536x8 : S_.BroadcastsInDim S4x65536x8 (![] : Fin 0 → Fin S4x65536x8.rank)
  bcast_S4x1x1_S4x65536x8_0_1_2 : S4x1x1.BroadcastsInDim S4x65536x8 (![0, 1, 2] : Fin 3 → Fin S4x65536x8.rank)
  bcast_S4x65536x8_S4x65536x8x1_0_1_2 : S4x65536x8.BroadcastsInDim S4x65536x8x1 (![0, 1, 2] : Fin 3 → Fin S4x65536x8x1.rank)
  concatenates_S4x65536x8x1_S4x65536x8x1_S4x65536x8x2_d3 : Shape.Concatenates [S4x65536x8x1, S4x65536x8x1] S4x65536x8x2 3
  bcast_S4x65536x2_S4x65536x1x2_0_1_3 : S4x65536x2.BroadcastsInDim S4x65536x1x2 (![0, 1, 3] : Fin 3 → Fin S4x65536x1x2.rank)
  bcast_S4x65536x1x2_S4x65536x8x2_0_1_2_3 : S4x65536x1x2.BroadcastsInDim S4x65536x8x2 (![0, 1, 2, 3] : Fin 4 → Fin S4x65536x8x2.rank)
  reducesTo_S4x65536x8x2_S4x65536x8_d3 : S4x65536x8x2.ReducesTo [3] S4x65536x8
  h_S_ : 0 < S_.numel
  concatenates_S4x65536x8x2_S4x65536x8x2_S4x65536x8x2_S4x65536x8x1_S4x65536x8x7_d3 : Shape.Concatenates [S4x65536x8x2, S4x65536x8x2, S4x65536x8x2, S4x65536x8x1] S4x65536x8x7 3
  bcast_S32_S1x1x1x32_3 : S32.BroadcastsInDim S1x1x1x32 (![3] : Fin 1 → Fin S1x1x1x32.rank)
  bcast_S1x1x1x32_S4x65536x8x32_0_1_2_3 : S1x1x1x32.BroadcastsInDim S4x65536x8x32 (![0, 1, 2, 3] : Fin 4 → Fin S4x65536x8x32.rank)
  bcast_S_S4x65536x8x32 : S_.BroadcastsInDim S4x65536x8x32 (![] : Fin 0 → Fin S4x65536x8x32.rank)
  concatenates_S4x65536x8x32_S4x65536x8x32_S4x65536x8x64_d3 : Shape.Concatenates [S4x65536x8x32, S4x65536x8x32] S4x65536x8x64 3
  gather_S4x65536x2_S4x65536x8x2_S4x65536x8x2_3_01_n_n_01_3_112_wf : GatherDims.WF S4x65536x2 S4x65536x8x2 S4x65536x8x2 [3] [0, 1] [] [0, 1] [] 3 ![1, 1, 2]
  gather_S4x65536x32_S4x65536x8x2_S4x65536x8x32_3_01_n_n_01_3_1132_wf : GatherDims.WF S4x65536x32 S4x65536x8x2 S4x65536x8x32 [3] [0, 1] [] [0, 1] [] 3 ![1, 1, 32]
  dot_S4x65536x8x7_S7x32_S4x65536x8x32_3_0_012_1_n_n_wf : DotDims.WF S4x65536x8x7 S7x32 S4x65536x8x32 [3] [0] [0, 1, 2] [1] [] []

variable [Facts₀]

def gather_S4x65536x2_S4x65536x8x2_S4x65536x8x2_3_01_n_n_01_3_112 : GatherDims S4x65536x2 S4x65536x8x2 S4x65536x8x2 where
  offsetDims := [3]
  collapsedSliceDims := [0, 1]
  operandBatchingDims := []
  startIndicesBatchingDims := []
  startIndexMap := [0, 1]
  indexVectorDim := 3
  sliceSizes := ![1, 1, 2]
  wf := gather_S4x65536x2_S4x65536x8x2_S4x65536x8x2_3_01_n_n_01_3_112_wf
def gather_S4x65536x32_S4x65536x8x2_S4x65536x8x32_3_01_n_n_01_3_1132 : GatherDims S4x65536x32 S4x65536x8x2 S4x65536x8x32 where
  offsetDims := [3]
  collapsedSliceDims := [0, 1]
  operandBatchingDims := []
  startIndicesBatchingDims := []
  startIndexMap := [0, 1]
  indexVectorDim := 3
  sliceSizes := ![1, 1, 32]
  wf := gather_S4x65536x32_S4x65536x8x2_S4x65536x8x32_3_01_n_n_01_3_1132_wf
def dot_S4x65536x8x7_S7x32_S4x65536x8x32_3_0_012_1_n_n : DotDims S4x65536x8x7 S7x32 S4x65536x8x32 where
  lhsContracting := [3]
  rhsContracting := [0]
  lhsNonContracting := [0, 1, 2]
  rhsNonContracting := [1]
  lhsBatch := []
  rhsBatch := []
  wf := dot_S4x65536x8x7_S7x32_S4x65536x8x32_3_0_012_1_n_n_wf

class Facts : Prop extends Facts₀ where

variable [Facts]
-- ==== Proof.KStages.lean ====
/-
  The kernel body's arithmetic, stage by stage, at the extended reals.

  One grid point works on 1024 points of one batch entry: `x0 : [1, 1024, 2]` the points, `x1 : [1, 1024, 8, 2]`
  their neighbours' coordinates, `x2 : [1, 1024, 8, 32]` the neighbours' features, `x3 : [7, 32]` the weights and
  `x4 : [32]` the bias. The stages below are the body's operations grouped by what they mean: the point repeated for
  its eight neighbours, the neighbours, their difference, its length, the seven-channel encoding, the product with the
  weights (rows = the 8192 (point, neighbour) pairs), and the rectified sum with the bias. `payload_eq` says the
  body's stored value is exactly their composition (the two sides are the same term).
-/
import proofs.«136591_j64707977282331_1_alg».proof.Proof.Gen.KernelIdeal.Skeleton
import Idealize.ShloMosaic.PureOps.Ideal

noncomputable section

namespace Cert.LocSE.Kernel

open Cert.KernelIdeal Cert.KernelIdeal.Gen Idealize.ShloMosaic

variable (x0 : Vec Ideal S1x1024x2 .f32) (x1 : Vec Ideal S1x1024x8x2 .f32) (x2 : Vec Ideal S1x1024x8x32 .f32)
  (x3 : Vec Ideal S7x32 .f32) (x4 : Vec Ideal S32 .f32)

/-- The block of points with its unit batch axis dropped: `[1024, 2]`. -/
def pts : FVec Ideal S1024x2 .f32 := shapeCast S1024x2 x0 shapeCasts_S1x1024x2_S1024x2

/-- Each point repeated along a new neighbour axis: `[1024, 8, 2]`. -/
def kpc : FVec Ideal S1024x8x2 .f32 :=
  broadcastTo S1024x8x2
    (shapeCast S1024x1x2 (shapeCast S1024x1x2 (pts x0) shapeCasts_S1024x2_S1024x1x2) shapeCasts_S1024x1x2_S1024x1x2)
    broadcasts_S1024x1x2_S1024x8x2

/-- The neighbours' coordinates with the unit batch axis dropped: `[1024, 8, 2]`. -/
def nbrs : FVec Ideal S1024x8x2 .f32 := shapeCast S1024x8x2 x1 shapeCasts_S1x1024x8x2_S1024x8x2

/-- The neighbours' features with the unit batch axis dropped: `[1024, 8, 32]`. -/
def nfeat : FVec Ideal S1024x8x32 .f32 := shapeCast S1024x8x32 x2 shapeCasts_S1x1024x8x32_S1024x8x32

/-- Point minus neighbour. -/
def relp : FVec Ideal S1024x8x2 .f32 := subf (kpc x0) (nbrs x1)

/-- The length of point minus neighbour, kept as a last axis of extent one. -/
def norms : FVec Ideal S1024x8x1 .f32 :=
  sqrt (shapeCast S1024x8x1
    (multiReduction .add [2] S1024x8 (mulf (relp x0 x1) (relp x0 x1)) 0x00000000#32 reduces_S1024x8x2_S1024x8 (.inl rfl) rfl)
    shapeCasts_S1024x8_S1024x8x1)

/-- The seven channels side by side. -/
def rppe : FVec Ideal S1024x8x7 .f32 :=
  concatenate S1024x8x7 2 [⟨S1024x8x2, kpc x0⟩, ⟨S1024x8x2, nbrs x1⟩, ⟨S1024x8x2, relp x0 x1⟩, ⟨S1024x8x1, norms x0 x1⟩]
    concatenates_S1024x8x2_S1024x8x2_S1024x8x2_S1024x8x1_S1024x8x7_d2

/-- The encoding of the 8192 (point, neighbour) pairs times the weights, accumulated from zero. -/
def prod : FVec Ideal S8192x32 .f32 :=
  matmul dot_S8192x7_S7x32_S8192x32_1_0_0_1_n_n none
    (truncf .bf16 (shapeCast S8192x7 (rppe x0 x1) shapeCasts_S1024x8x7_S8192x7) bitsLt_bf16_f32)
    (truncf .bf16 x3 bitsLt_bf16_f32) (constant S8192x32 .f32 0x00000000#32)

/-- The product back in `[1024, 8, 32]`, plus the bias, rectified. -/
def act : FVec Ideal S1024x8x32 .f32 :=
  maximumf
    (addf (shapeCast S1024x8x32 (prod x0 x1 x3) shapeCasts_S8192x32_S1024x8x32)
      (broadcastTo S1024x8x32 (shapeCast S1x1x32 x4 shapeCasts_S32_S1x1x32) broadcasts_S1x1x32_S1024x8x32))
    (broadcast S1024x8x32 (Scalar.ofBits .f32 0x00000000#32))

/-- The stored block: features then activations along the last axis, with the unit batch axis restored. -/
def outBlock : FVec Ideal S1x1024x8x64 .f32 :=
  shapeCast S1x1024x8x64
    (concatenate S1024x8x64 2 [⟨S1024x8x32, nfeat x2⟩, ⟨S1024x8x32, act x0 x1 x3 x4⟩] concatenates_S1024x8x32_S1024x8x32_S1024x8x64_d2)
    shapeCasts_S1024x8x64_S1x1024x8x64

/-- The body's one stored value is the composition of the stages. -/
theorem payload_eq : k0_pay1 (F := Ideal) x0 x1 x2 x3 x4 = outBlock x0 x1 x2 x3 x4 := rfl

end Cert.LocSE.Kernel

end
-- ==== Proof.Spec.lean ====
/-
  The value both programs compute, one output entry at a time.

  A point cloud `pc : [4, 65536, 2]`, for every point the coordinates `np : [4, 65536, 8, 2]` and the features
  `nf : [4, 65536, 8, 32]` of its eight neighbours (both programs gather them from `pc` and `feats` with the same
  host operations, so here they are just arrays), a weight matrix `W : [7, 32]` and a bias `β : [32]`.
  For a point `p` and a neighbour `q` (two coordinates each) the relative-position encoding has seven channels:
  `p`, `q`, `p - q`, and the Euclidean length of `p - q`, the square root of the sum of the two squared
  differences. The output entry `(b, n, k, f)` is the neighbour's feature `f` for `f < 32`, and for `f ≥ 32`
  the rectified affine image `max (Σ_c enc_c · W[c, f - 32] + β[f - 32]) 0` of the encoding.
  Everything is over the extended reals; only commutative-monoid sums and products occur, so nothing here needs
  the entries to be finite.
-/
import Idealize.ShloMosaic.PureOps.Ideal
import Idealize.ShloMosaic.PureOps.Ideal.Laws
import Idealize.ShloMosaic.Lib.ValueIdx

noncomputable section

namespace Cert.LocSE

open Idealize.ShloMosaic Idealize.ShloMosaic.ValueIdx

abbrev SPc : Shape := ⟨3, ![4, 65536, 2]⟩
abbrev SNp : Shape := ⟨4, ![4, 65536, 8, 2]⟩
abbrev SNf : Shape := ⟨4, ![4, 65536, 8, 32]⟩
abbrev SW : Shape := ⟨2, ![7, 32]⟩
abbrev SB : Shape := ⟨1, ![32]⟩
abbrev SOut : Shape := ⟨4, ![4, 65536, 8, 64]⟩

/-- The word both programs write for the rectifier's floor: f32 zero. -/
abbrev floor0 : EReal := Ideal.ofBits .f32 0x00000000#32

/-- The squared length of `p - q`: the sum over the two coordinates of the squared difference. -/
def sqLen (p q : Fin 2 → EReal) : EReal := ∑ d : Fin 2, (p d - q d) * (p d - q d)

/-- The seven channels of the relative-position encoding of a point `p` and a neighbour `q`:
    channels 0, 1 are `p`; 2, 3 are `q`; 4, 5 are `p - q`; 6 is the length of `p - q`. -/
def enc (p q : Fin 2 → EReal) (c : Fin 7) : EReal :=
  if h : c.val < 2 then p ⟨c.val, h⟩
  else if h2 : c.val < 4 then q ⟨c.val - 2, by omega⟩
  else if h3 : c.val < 6 then p ⟨c.val - 4, by omega⟩ - q ⟨c.val - 4, by omega⟩
  else Ideal.sqrt (sqLen p q)

/-- One output feature of the pointwise layer: the encoding against a column `w` of the weights, plus the bias entry,
    rectified. -/
def mlp (p q : Fin 2 → EReal) (w : Fin 7 → EReal) (β : EReal) : EReal :=
  max ((∑ c : Fin 7, enc p q c * w c) + β) floor0

/-- The whole result: neighbour features in the first 32 channels, the rectified layer in the last 32. -/
def G (pc : SPc.Idx → EReal) (np : SNp.Idx → EReal) (nf : SNf.Idx → EReal) (W : SW.Idx → EReal) (β : SB.Idx → EReal) :
    SOut.Idx → EReal := fun j =>
  if h : (j 3).val < 32 then nf (ix4 (j 0) (j 1) (j 2) ⟨(j 3).val, h⟩)
  else mlp (fun d => pc (ix3 (j 0) (j 1) d)) (fun d => np (ix4 (j 0) (j 1) (j 2) d))
    (fun c => W (ix2 c ⟨(j 3).val - 32, by have h64 : (j 3).val < 64 := (j 3).isLt; omega⟩))
    (β (ix1 ⟨(j 3).val - 32, by have h64 : (j 3).val < 64 := (j 3).isLt; omega⟩))

end Cert.LocSE

end
-- ==== Proof.KRead.lean ====
/-
  The kernel body's stages read one entry at a time.

  Inside a block, point `r` (of 1024) and neighbour `k` (of 8) have coordinates `x0[0, r, ·]` and `x1[0, r, k, ·]`.
  Every layout step (dropping or adding a unit axis, repeating along the neighbour axis, merging the point and
  neighbour axes into 8192 rows) only renames an index: row `8 r + k` of the merged array is pair `(r, k)`. The lane
  sum over the two coordinates is a two-term sum, the product into a zero accumulator is the seven-term sum over the
  channels, and a change of float format is the identity on the extended reals. So entry `(0, r, k, f)` of the stored
  block is the neighbour's feature for `f < 32` and `mlp` of the pair against column `f - 32` otherwise.
-/
import proofs.«136591_j64707977282331_1_alg».proof.Proof.KStages
import proofs.«136591_j64707977282331_1_alg».proof.Proof.Spec
import Idealize.ShloMosaic.Lib.Pipeline.Value
import Idealize.ShloMosaic.Lib.ValueIdx
import Idealize.ShloMosaic.PureOps.Ideal.Laws

noncomputable section

namespace Cert.LocSE.Kernel

open Cert.KernelIdeal Cert.KernelIdeal.Gen Idealize.ShloMosaic Idealize.ShloMosaic.ValueIdx Cert.LocSE

variable (x0 : Vec Ideal S1x1024x2 .f32) (x1 : Vec Ideal S1x1024x8x2 .f32) (x2 : Vec Ideal S1x1024x8x32 .f32)
  (x3 : Vec Ideal S7x32 .f32) (x4 : Vec Ideal S32 .f32)

/-- Point `r` of the block. -/
abbrev P (r : Fin 1024) : Fin 2 → EReal := fun d => x0 (ix3 0 r d)
/-- Neighbour `k` of point `r`. -/
abbrev Q (r : Fin 1024) (k : Fin 8) : Fin 2 → EReal := fun d => x1 (ix4 0 r k d)
/-- The merged row of pair `(r, k)`. -/
abbrev row (r : Fin 1024) (k : Fin 8) : Fin 8192 := ⟨r.val * 8 + k.val, by omega⟩

theorem pts_apply (r : Fin 1024) (d : Fin 2) : pts x0 (ix2 r d) = x0 (ix3 0 r d) := by
  unfold pts
  exact shapeCast_apply x0 _ (ix2 r d) (ix3 0 r d) (by
    rw [Shape.rowMajor_val_three, Shape.rowMajor_val_two]
    show ((0 : Nat) * 1024 + r.val) * 2 + d.val = r.val * 2 + d.val
    omega)

theorem kpc_apply (r : Fin 1024) (k : Fin 8) (d : Fin 2) : kpc x0 (ix3 r k d) = x0 (ix3 0 r d) := by
  unfold kpc
  refine (broadcastTo_apply _ _ (ix3 r k d) (ix3 r 0 d) (fun a => ?_)).trans ?_
  · match a with
    | ⟨0, _⟩ => show r.val = if (1024 : Nat) = 1 then 0 else r.val; rw [if_neg (by decide)]
    | ⟨1, _⟩ => show (0 : Nat) = if (1 : Nat) = 1 then 0 else k.val; rw [if_pos rfl]
    | ⟨2, _⟩ => show d.val = if (2 : Nat) = 1 then 0 else d.val; rw [if_neg (by decide)]
  · rw [shapeCast_self]
    refine (shapeCast_apply _ _ (ix3 r 0 d) (ix2 r d) ?_).trans (pts_apply x0 r d)
    rw [Shape.rowMajor_val_three, Shape.rowMajor_val_two]
    show r.val * 2 + d.val = (r.val * 1 + (0 : Nat)) * 2 + d.val
    omega

theorem nbrs_apply (r : Fin 1024) (k : Fin 8) (d : Fin 2) : nbrs x1 (ix3 r k d) = x1 (ix4 0 r k d) := by
  unfold nbrs
  exact shapeCast_apply x1 _ (ix3 r k d) (ix4 0 r k d) (by
    rw [Shape.rowMajor_val_four, Shape.rowMajor_val_three]
    show (((0 : Nat) * 1024 + r.val) * 8 + k.val) * 2 + d.val = (r.val * 8 + k.val) * 2 + d.val
    omega)

theorem nfeat_apply (r : Fin 1024) (k : Fin 8) (f : Fin 32) : nfeat x2 (ix3 r k f) = x2 (ix4 0 r k f) := by
  unfold nfeat
  exact shapeCast_apply x2 _ (ix3 r k f) (ix4 0 r k f) (by
    rw [Shape.rowMajor_val_four, Shape.rowMajor_val_three]
    show (((0 : Nat) * 1024 + r.val) * 8 + k.val) * 32 + f.val = (r.val * 8 + k.val) * 32 + f.val
    omega)

theorem relp_apply (r : Fin 1024) (k : Fin 8) (d : Fin 2) : relp x0 x1 (ix3 r k d) = P x0 r d - Q x1 r k d := by
  unfold relp
  rw [subf_apply, kpc_apply, nbrs_apply]

theorem norms_apply (r : Fin 1024) (k : Fin 8) :
    norms x0 x1 (ix3 r k 0) = Ideal.sqrt (sqLen (P x0 r) (Q x1 r k)) := by
  unfold norms
  show Ideal.sqrt (shapeCast S1024x8x1 _ shapeCasts_S1024x8_S1024x8x1 (ix3 r k 0)) = _
  refine congrArg Ideal.sqrt ?_
  refine (shapeCast_apply _ _ (ix3 r k 0) (ix2 r k) ?_).trans ?_
  · rw [Shape.rowMajor_val_three, Shape.rowMajor_val_two]
    show r.val * 8 + k.val = (r.val * 8 + k.val) * 1 + (0 : Nat)
    omega
  · refine (Ideal.multiReduction_add_single _ _ reduces_S1024x8x2_S1024x8 _ _ (ix2 r k)).trans ?_
    unfold sqLen
    show (∑ d : Fin 2, mulf (relp x0 x1) (relp x0 x1) (reduces_S1024x8x2_S1024x8.lift (ix2 r k) d)) = _
    refine Finset.sum_congr rfl fun d _ => ?_
    have e : reduces_S1024x8x2_S1024x8.lift (ix2 r k) d = ix3 r k d :=
      funext fun a => Fin.ext (by match a with | ⟨0, _⟩ => rfl | ⟨1, _⟩ => rfl | ⟨2, _⟩ => rfl)
    rw [e, mulf_apply, relp_apply]

theorem rppe_apply (r : Fin 1024) (k : Fin 8) (c : Fin 7) :
    rppe x0 x1 (ix3 r k c) = enc (P x0 r) (Q x1 r k) c := by
  unfold rppe enc
  by_cases h1 : c.val < 2
  · rw [dif_pos h1]
    exact (concatenate_apply_piece (t := S1024x8x7) 2 _ _ (ix3 r k c) 0 (by show (0 : Nat) < 4; omega) S1024x8x2 (kpc x0) rfl rfl 0 rfl
      (ix3 r k ⟨c.val, h1⟩)
      (fun b hb => by match b with | ⟨0, _⟩ => rfl | ⟨1, _⟩ => rfl | ⟨2, _⟩ => exact absurd rfl hb)
      (by show 0 + c.val = c.val; omega)).trans (kpc_apply x0 r k ⟨c.val, h1⟩)
  · rw [dif_neg h1]
    by_cases h2 : c.val < 4
    · rw [dif_pos h2]
      exact (concatenate_apply_piece (t := S1024x8x7) 2 _ _ (ix3 r k c) 1 (by show (1 : Nat) < 4; omega) S1024x8x2 (nbrs x1) rfl rfl 2 rfl
        (ix3 r k ⟨c.val - 2, by omega⟩)
        (fun b hb => by match b with | ⟨0, _⟩ => rfl | ⟨1, _⟩ => rfl | ⟨2, _⟩ => exact absurd rfl hb)
        (by show 2 + (c.val - 2) = c.val; omega)).trans (nbrs_apply x1 r k ⟨c.val - 2, by omega⟩)
    · rw [dif_neg h2]
      by_cases h3 : c.val < 6
      · rw [dif_pos h3]
        exact (concatenate_apply_piece (t := S1024x8x7) 2 _ _ (ix3 r k c) 2 (by show (2 : Nat) < 4; omega) S1024x8x2 (relp x0 x1) rfl rfl 4 rfl
          (ix3 r k ⟨c.val - 4, by omega⟩)
          (fun b hb => by match b with | ⟨0, _⟩ => rfl | ⟨1, _⟩ => rfl | ⟨2, _⟩ => exact absurd rfl hb)
          (by show 4 + (c.val - 4) = c.val; omega)).trans (relp_apply x0 x1 r k ⟨c.val - 4, by omega⟩)
      · rw [dif_neg h3]
        have hc : c.val < 7 := c.isLt
        exact (concatenate_apply_piece (t := S1024x8x7) 2 _ _ (ix3 r k c) 3 (by show (3 : Nat) < 4; omega) S1024x8x1 (norms x0 x1) rfl rfl 6 rfl
          (ix3 r k 0)
          (fun b hb => by match b with | ⟨0, _⟩ => rfl | ⟨1, _⟩ => rfl | ⟨2, _⟩ => exact absurd rfl hb)
          (by show 6 + (0 : Nat) = c.val; omega)).trans (norms_apply x0 x1 r k)

/-- Row `8 r + k` of the merged encoding is pair `(r, k)`'s. -/
theorem merged_apply (r : Fin 1024) (k : Fin 8) (c : Fin 7) :
    shapeCast S8192x7 (rppe x0 x1) shapeCasts_S1024x8x7_S8192x7 (ix2 (row r k) c) = enc (P x0 r) (Q x1 r k) c := by
  refine (shapeCast_apply _ _ (ix2 (row r k) c) (ix3 r k c) ?_).trans (rppe_apply x0 x1 r k c)
  rw [Shape.rowMajor_val_three, Shape.rowMajor_val_two]
  show (r.val * 8 + k.val) * 7 + c.val = (r.val * 8 + k.val) * 7 + c.val
  rfl

/-! The product's operand indices: the left operand is read at (row, channel), the right at (channel, column). -/

theorem lhs_prod_0 (i : S8192x32.Idx) (q : dot_S8192x7_S7x32_S8192x32_1_0_0_1_n_n.contr.Idx) : (dot_S8192x7_S7x32_S8192x32_1_0_0_1_n_n.lhsIdx i q 0).val = (i 0).val := by
  unfold DotDims.lhsIdx
  rw [dif_neg (show ¬(0 : Fin S8192x7.rank) ∈ dot_S8192x7_S7x32_S8192x32_1_0_0_1_n_n.lhsBatch by decide), dif_pos (show (0 : Fin S8192x7.rank) ∈ dot_S8192x7_S7x32_S8192x32_1_0_0_1_n_n.lhsNonContracting by decide)]
  rfl
theorem lhs_prod_1 (i : S8192x32.Idx) (q : dot_S8192x7_S7x32_S8192x32_1_0_0_1_n_n.contr.Idx) : (dot_S8192x7_S7x32_S8192x32_1_0_0_1_n_n.lhsIdx i q 1).val = (q ⟨0, by decide⟩).val :=
  dot_S8192x7_S7x32_S8192x32_1_0_0_1_n_n.lhsIdx_val_of_single rfl i q
theorem rhs_prod_0 (i : S8192x32.Idx) (q : dot_S8192x7_S7x32_S8192x32_1_0_0_1_n_n.contr.Idx) : (dot_S8192x7_S7x32_S8192x32_1_0_0_1_n_n.rhsIdx i q 0).val = (q ⟨0, by decide⟩).val :=
  dot_S8192x7_S7x32_S8192x32_1_0_0_1_n_n.rhsIdx_val_of_single rfl i q
theorem rhs_prod_1 (i : S8192x32.Idx) (q : dot_S8192x7_S7x32_S8192x32_1_0_0_1_n_n.contr.Idx) : (dot_S8192x7_S7x32_S8192x32_1_0_0_1_n_n.rhsIdx i q 1).val = (i 1).val := by
  unfold DotDims.rhsIdx
  rw [dif_neg (show ¬(1 : Fin S7x32.rank) ∈ dot_S8192x7_S7x32_S8192x32_1_0_0_1_n_n.rhsBatch by decide), dif_pos (show (1 : Fin S7x32.rank) ∈ dot_S8192x7_S7x32_S8192x32_1_0_0_1_n_n.rhsNonContracting by decide)]
  rfl

theorem prod_apply (r : Fin 1024) (k : Fin 8) (f : Fin 32) :
    prod x0 x1 x3 (ix2 (row r k) f) = ∑ c : Fin 7, enc (P x0 r) (Q x1 r k) c * x3 (ix2 c f) := by
  unfold prod
  simp only [matmul]
  rw [Ideal.matmul_constant_zero_apply, ← Equiv.sum_comp (contrEquiv1 dot_S8192x7_S7x32_S8192x32_1_0_0_1_n_n 7 rfl rfl).symm]
  refine Finset.sum_congr rfl fun c _ => ?_
  have hk := contrEquiv1_symm_val dot_S8192x7_S7x32_S8192x32_1_0_0_1_n_n 7 rfl rfl c
  have el : dot_S8192x7_S7x32_S8192x32_1_0_0_1_n_n.lhsIdx (ix2 (row r k) f) ((contrEquiv1 dot_S8192x7_S7x32_S8192x32_1_0_0_1_n_n 7 rfl rfl).symm c) = ix2 (row r k) c := funext fun a => Fin.ext (by
    match a with
    | ⟨0, _⟩ => exact lhs_prod_0 _ _
    | ⟨1, _⟩ => exact (lhs_prod_1 _ _).trans hk)
  have er : dot_S8192x7_S7x32_S8192x32_1_0_0_1_n_n.rhsIdx (ix2 (row r k) f) ((contrEquiv1 dot_S8192x7_S7x32_S8192x32_1_0_0_1_n_n 7 rfl rfl).symm c) = ix2 c f := funext fun a => Fin.ext (by
    match a with
    | ⟨0, _⟩ => exact (rhs_prod_0 _ _).trans hk
    | ⟨1, _⟩ => exact rhs_prod_1 _ _)
  rw [el, er, truncf_apply, truncf_apply, merged_apply]

theorem act_apply (r : Fin 1024) (k : Fin 8) (f : Fin 32) :
    act x0 x1 x3 x4 (ix3 r k f) = mlp (P x0 r) (Q x1 r k) (fun c => x3 (ix2 c f)) (x4 (ix1 f)) := by
  have e1 : shapeCast S1024x8x32 (prod x0 x1 x3) shapeCasts_S8192x32_S1024x8x32 (ix3 r k f)
      = ∑ c : Fin 7, enc (P x0 r) (Q x1 r k) c * x3 (ix2 c f) := by
    refine (shapeCast_apply _ _ (ix3 r k f) (ix2 (row r k) f) ?_).trans (prod_apply x0 x1 x3 r k f)
    rw [Shape.rowMajor_val_three, Shape.rowMajor_val_two]
    show (r.val * 8 + k.val) * 32 + f.val = (r.val * 8 + k.val) * 32 + f.val
    rfl
  have e2 : broadcastTo S1024x8x32 (shapeCast S1x1x32 x4 shapeCasts_S32_S1x1x32) broadcasts_S1x1x32_S1024x8x32 (ix3 r k f)
      = x4 (ix1 f) := by
    refine (broadcastTo_apply _ _ (ix3 r k f) (ix3 0 0 f) (fun a => ?_)).trans ?_
    · match a with
      | ⟨0, _⟩ => show (0 : Nat) = if (1 : Nat) = 1 then 0 else r.val; rw [if_pos rfl]
      | ⟨1, _⟩ => show (0 : Nat) = if (1 : Nat) = 1 then 0 else k.val; rw [if_pos rfl]
      | ⟨2, _⟩ => show f.val = if (32 : Nat) = 1 then 0 else f.val; rw [if_neg (by decide)]
    · refine shapeCast_apply _ _ (ix3 0 0 f) (ix1 f) ?_
      rw [Shape.rowMajor_val_three, Shape.rowMajor_val_one]
      show f.val = ((0 : Nat) * 1 + (0 : Nat)) * 32 + f.val
      omega
  unfold act mlp
  exact congrArg₂ max (congrArg₂ HAdd.hAdd e1 e2) rfl

/-- One entry of the stored block. -/
theorem outBlock_apply (r : Fin 1024) (k : Fin 8) (f : Fin 64) :
    outBlock x0 x1 x2 x3 x4 (ix4 0 r k f)
      = if h : f.val < 32 then x2 (ix4 0 r k ⟨f.val, h⟩)
        else mlp (P x0 r) (Q x1 r k) (fun c => x3 (ix2 c ⟨f.val - 32, by omega⟩)) (x4 (ix1 ⟨f.val - 32, by omega⟩)) := by
  unfold outBlock
  refine (shapeCast_apply _ _ (ix4 0 r k f) (ix3 r k f) ?_).trans ?_
  · rw [Shape.rowMajor_val_four, Shape.rowMajor_val_three]
    show (r.val * 8 + k.val) * 64 + f.val = (((0 : Nat) * 1024 + r.val) * 8 + k.val) * 64 + f.val
    omega
  · by_cases h : f.val < 32
    · rw [dif_pos h]
      exact (concatenate_pair_apply_left (t := S1024x8x64) (s₁ := S1024x8x32) (s₂ := S1024x8x32) 2 (nfeat x2) (act x0 x1 x3 x4) _ (ix3 r k f) rfl (ix3 r k ⟨f.val, h⟩)
        (fun b => by match b with | ⟨0, _⟩ => rfl | ⟨1, _⟩ => rfl | ⟨2, _⟩ => rfl)).trans (nfeat_apply x2 r k ⟨f.val, h⟩)
    · rw [dif_neg h]
      exact (concatenate_pair_apply_right (t := S1024x8x64) (s₁ := S1024x8x32) (s₂ := S1024x8x32) 2 (nfeat x2) (act x0 x1 x3 x4) _ (ix3 r k f) rfl rfl (ix3 r k ⟨f.val - 32, by omega⟩)
        (fun b hb => by match b with | ⟨0, _⟩ => rfl | ⟨1, _⟩ => rfl | ⟨2, _⟩ => exact absurd rfl hb)
        (by show f.val - 32 + 32 = f.val; omega)).trans (act_apply x0 x1 x3 x4 r k ⟨f.val - 32, by omega⟩)

end Cert.LocSE.Kernel

end
-- ==== Proof.KBlock.lean ====
/-
  From blocks to the whole array: after the run the kernel's result array is the specification `G` of the arrays
  the region finds.

  Grid point `t = (b, j)` (4 × 64 points) works on batch entry `b` and the 1024 points `1024 j … 1024 j + 1023`:
  its three moving input blocks and its output block all sit at block index `(b, j, 0, …)`, the weights and the bias
  are whole. So entry `(0, r, k, f)` of a block is entry `(b, 1024 j + r, k, f)` of its array, the body's stored
  block is block `t` of `G`, and since the 256 output blocks tile the array (point `(b, n / 1024)` covers row
  `n` of batch entry `b`), the array ends as `G`.
-/
import proofs.«136591_j64707977282331_1_alg».proof.Proof.Gen.KernelIdeal.Value
import proofs.«136591_j64707977282331_1_alg».proof.Proof.KRead

noncomputable section

namespace Cert.LocSE.Kernel

open Cert.KernelIdeal Cert.KernelIdeal.Gen Idealize.ShloMosaic Idealize.ShloMosaic.TcCoe Idealize.SL.Sem
open Idealize.ShloMosaic.ValueIdx Cert.LocSE
open Idealize.ShloMosaic.Pipeline (Dat)

/-! ## A block of the specification -/

/-- If the five loaded blocks are the arrays `A0 … A4` read through maps `e0, e1, e2` that send block entry
    `(0, r, …)` to array entry `(b, 1024 j + r, …)`, and `e5` does the same for the output, then the body's stored
    block is `G A0 … A4` read through `e5`. -/
theorem block_eq (A0 : SPc.Idx → EReal) (A1 : SNp.Idx → EReal) (A2 : SNf.Idx → EReal) (A3 : SW.Idx → EReal) (A4 : SB.Idx → EReal)
    (x0 : Vec Ideal S1x1024x2 .f32) (x1 : Vec Ideal S1x1024x8x2 .f32) (x2 : Vec Ideal S1x1024x8x32 .f32)
    (x3 : Vec Ideal S7x32 .f32) (x4 : Vec Ideal S32 .f32)
    (e0 : S1x1024x2.Idx → SPc.Idx) (e1 : S1x1024x8x2.Idx → SNp.Idx) (e2 : S1x1024x8x32.Idx → SNf.Idx)
    (e5 : S1x1024x8x64.Idx → SOut.Idx)
    (h0 : ∀ y, x0 y = A0 (e0 y)) (h1 : ∀ y, x1 y = A1 (e1 y)) (h2 : ∀ y, x2 y = A2 (e2 y)) (h3 : x3 = A3) (h4 : x4 = A4)
    (b j : Nat)
    (hb0 : ∀ y, (e0 y 0).val = b ∧ (e0 y 1).val = j * 1024 + (y 1).val ∧ (e0 y 2).val = (y 2).val)
    (hb1 : ∀ y, (e1 y 0).val = b ∧ (e1 y 1).val = j * 1024 + (y 1).val ∧ (e1 y 2).val = (y 2).val ∧ (e1 y 3).val = (y 3).val)
    (hb2 : ∀ y, (e2 y 0).val = b ∧ (e2 y 1).val = j * 1024 + (y 1).val ∧ (e2 y 2).val = (y 2).val ∧ (e2 y 3).val = (y 3).val)
    (hb5 : ∀ y, (e5 y 0).val = b ∧ (e5 y 1).val = j * 1024 + (y 1).val ∧ (e5 y 2).val = (y 2).val ∧ (e5 y 3).val = (y 3).val)
    (y : S1x1024x8x64.Idx) :
    outBlock x0 x1 x2 x3 x4 y = G A0 A1 A2 A3 A4 (e5 y) := by
  obtain ⟨a, r, k, f, rfl⟩ : ∃ (a : Fin 1) (r : Fin 1024) (k : Fin 8) (f : Fin 64), y = ix4 a r k f :=
    ⟨y 0, y 1, y 2, y 3, eq_ix4 y⟩
  obtain rfl : a = 0 := Subsingleton.elim _ _
  rw [outBlock_apply]
  unfold G
  obtain ⟨q0, q1, q2, q3⟩ := hb5 (ix4 0 r k f)
  have q1' : (e5 (ix4 0 r k f) 1).val = j * 1024 + r.val := q1
  have q2' : (e5 (ix4 0 r k f) 2).val = k.val := q2
  have q3' : (e5 (ix4 0 r k f) 3).val = f.val := q3
  by_cases h : f.val < 32
  · rw [dif_pos h, dif_pos (show (e5 (ix4 0 r k f) 3).val < 32 by rw [q3']; exact h), h2]
    obtain ⟨p0, p1, p2, p3⟩ := hb2 (ix4 0 r k ⟨f.val, h⟩)
    have p1' : (e2 (ix4 0 r k ⟨f.val, h⟩) 1).val = j * 1024 + r.val := p1
    have p2' : (e2 (ix4 0 r k ⟨f.val, h⟩) 2).val = k.val := p2
    have p3' : (e2 (ix4 0 r k ⟨f.val, h⟩) 3).val = f.val := p3
    refine congrArg A2 (funext fun a => Fin.ext ?_)
    match a with
    | ⟨0, _⟩ => exact p0.trans q0.symm
    | ⟨1, _⟩ => exact p1'.trans q1'.symm
    | ⟨2, _⟩ => exact p2'.trans q2'.symm
    | ⟨3, _⟩ => exact p3'.trans q3'.symm
  · rw [dif_neg h, dif_neg (show ¬ (e5 (ix4 0 r k f) 3).val < 32 by rw [q3']; exact h)]
    have eP : P x0 r = fun d => A0 (ix3 (e5 (ix4 0 r k f) 0) (e5 (ix4 0 r k f) 1) d) := by
      funext d
      obtain ⟨p0, p1, p2⟩ := hb0 (ix3 0 r d)
      have p1' : (e0 (ix3 0 r d) 1).val = j * 1024 + r.val := p1
      have p2' : (e0 (ix3 0 r d) 2).val = d.val := p2
      show x0 (ix3 0 r d) = _
      rw [h0]
      refine congrArg A0 (funext fun a => Fin.ext ?_)
      match a with
      | ⟨0, _⟩ => exact p0.trans q0.symm
      | ⟨1, _⟩ => exact p1'.trans q1'.symm
      | ⟨2, _⟩ => exact p2'
    have eQ : Q x1 r k = fun d => A1 (ix4 (e5 (ix4 0 r k f) 0) (e5 (ix4 0 r k f) 1) (e5 (ix4 0 r k f) 2) d) := by
      funext d
      obtain ⟨p0, p1, p2, p3⟩ := hb1 (ix4 0 r k d)
      have p1' : (e1 (ix4 0 r k d) 1).val = j * 1024 + r.val := p1
      have p2' : (e1 (ix4 0 r k d) 2).val = k.val := p2
      have p3' : (e1 (ix4 0 r k d) 3).val = d.val := p3
      show x1 (ix4 0 r k d) = _
      rw [h1]
      refine congrArg A1 (funext fun a => Fin.ext ?_)
      match a with
      | ⟨0, _⟩ => exact p0.trans q0.symm
      | ⟨1, _⟩ => exact p1'.trans q1'.symm
      | ⟨2, _⟩ => exact p2'.trans q2'.symm
      | ⟨3, _⟩ => exact p3'
    have ef : (⟨f.val - 32, by omega⟩ : Fin 32) = ⟨(e5 (ix4 0 r k f) 3).val - 32, by rw [q3']; omega⟩ :=
      Fin.ext (by show f.val - 32 = (e5 (ix4 0 r k f) 3).val - 32; rw [q3'])
    rw [eP, eQ, h3, h4, ef]

/-! ## The index maps over the grid -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- Decided over the 256 grid points: the three moving inputs sit at the output's block index on the batch and point
    axes and at block 0 on the others; the weights and the bias are whole; the output's block index stays in its range. -/
theorem idx_facts : ∀ t : Fin cfg0.N,
    win0_0.index t (0 : Fin 3) = win0_5.index t (0 : Fin 4) ∧ win0_0.index t (1 : Fin 3) = win0_5.index t (1 : Fin 4)
    ∧ win0_0.index t (2 : Fin 3) = 0
    ∧ win0_1.index t (0 : Fin 4) = win0_5.index t (0 : Fin 4) ∧ win0_1.index t (1 : Fin 4) = win0_5.index t (1 : Fin 4)
    ∧ win0_1.index t (2 : Fin 4) = 0 ∧ win0_1.index t (3 : Fin 4) = 0
    ∧ win0_2.index t (0 : Fin 4) = win0_5.index t (0 : Fin 4) ∧ win0_2.index t (1 : Fin 4) = win0_5.index t (1 : Fin 4)
    ∧ win0_2.index t (2 : Fin 4) = 0 ∧ win0_2.index t (3 : Fin 4) = 0
    ∧ win0_3.index t (0 : Fin 2) = 0 ∧ win0_3.index t (1 : Fin 2) = 0 ∧ win0_4.index t (0 : Fin 1) = 0
    ∧ win0_5.index t (0 : Fin 4) ≤ 3 ∧ win0_5.index t (1 : Fin 4) ≤ 63
    ∧ win0_5.index t (2 : Fin 4) = 0 ∧ win0_5.index t (3 : Fin 4) = 0 :=
  (by decide +kernel : ∀ t : Fin grid0.N, _)

/-- Every (batch entry, group of 1024 points) is some grid point's output block. -/
theorem idx_onto : ∀ (q0 : Fin 4) (q1 : Fin 64), ∃ t : Fin cfg0.N, win0_5.index t = ![q0.val, q1.val, 0, 0] :=
  (by decide +kernel : ∀ (q0 : Fin 4) (q1 : Fin 64), ∃ t : Fin grid0.N, win0_5.index t = ![q0.val, q1.val, 0, 0])

end Cert.LocSE.Kernel

end
-- ==== Proof.KValue.lean ====
/-
  The kernel's run, read: the result array ends as the specification `G` of the point cloud, the two gathered
  arrays the region finds (the neighbours' coordinates and features), the weights and the bias.

  What grid point `t` writes back is the body's stored block of the five input blocks at `t`; each input block is
  its array read through the block's position, so by `block_eq` the written block is block `t` of `G`. The 256
  output blocks cover every index (row `n` of batch entry `b` lies in the block of point `(b, n / 1024)`), hence the
  array after the run is `G` everywhere.
-/
import proofs.«136591_j64707977282331_1_alg».proof.Proof.Gen.KernelIdeal.Value
import proofs.«136591_j64707977282331_1_alg».proof.Proof.KBlock

noncomputable section

namespace Cert.LocSE.Kernel

open Cert.KernelIdeal Cert.KernelIdeal.Gen Idealize.ShloMosaic Idealize.ShloMosaic.TcCoe Idealize.SL.Sem
open Idealize.ShloMosaic.ValueIdx Cert.LocSE
open Idealize.ShloMosaic.Pipeline (Dat)

variable (m : (ℓ : Loc nD τ sig) → Buf (Elt Ideal) ℓ) (ρ : Dev nD → PrngReg)

/-- The specification of the arrays as the region finds them. -/
abbrev GV (c : Dev nD) : S4x65536x8x64.Idx → EReal :=
  G (V m c main_arg0) (V m c main_v16) (V m c main_v31) (V m c main_arg3) (V m c main_arg4)

/-- WHAT POINT `t` WRITES BACK is block `t` of the specification. -/
theorem flushed_eq (c : Dev nD) (t : Fin cfg0.N) :
    (dats m 0 c).flushed 5 t = ((cfg0.win 5).blk t).view.read (Elt Ideal) (GV m c) := by
  rw [Cert.KernelIdeal.Value.flushed5]
  unfold out0_5
  rw [View.canon_unit_zero hz4]
  simp only [View.ld_unit_zero (S := S1x1024x2) hz3, View.ld_unit_zero (S := S1x1024x8x2) hz4,
    View.ld_unit_zero (S := S1x1024x8x32) hz4, View.ld_unit_zero (S := S7x32) hz2, View.ld_unit_zero (S := S32) hz1]
  obtain ⟨a0, a1, a2, b0, b1, b2, b3, c0, c1, c2, c3, w0, w1, v0, l0, l1, z2, z3⟩ := idx_facts t
  funext y
  refine (congrFun (payload_eq (iblk m c 0 t) (iblk m c 1 t) (iblk m c 2 t) (iblk m c 3 t) (iblk m c 4 t)) y).trans ?_
  -- from here on the arrays are just a valuation `W` of the buffers: nothing below looks inside them
  unfold iblk GV
  generalize V m c = W
  have h3 : ((cfg0.win 3).blk t).view.read (Elt Ideal) (W (Pipeline.arrRef spec0 3)) = W main_arg3 :=
    funext fun y => congrArg (W main_arg3) (funext fun a => Fin.ext (by
      match a with
      | ⟨0, _⟩ => show win0_3.index t (0 : Fin 2) * 7 + 1 * (y 0).val = (y 0).val; omega
      | ⟨1, _⟩ => show win0_3.index t (1 : Fin 2) * 32 + 1 * (y 1).val = (y 1).val; omega))
  have h4 : ((cfg0.win 4).blk t).view.read (Elt Ideal) (W (Pipeline.arrRef spec0 4)) = W main_arg4 :=
    funext fun y => congrArg (W main_arg4) (funext fun a => Fin.ext (by
      match a with
      | ⟨0, _⟩ => show win0_4.index t (0 : Fin 1) * 32 + 1 * (y 0).val = (y 0).val; omega))
  exact block_eq (W main_arg0) (W main_v16) (W main_v31) (W main_arg3) (W main_arg4)
    (((cfg0.win 0).blk t).view.read (Elt Ideal) (W (Pipeline.arrRef spec0 0)))
    (((cfg0.win 1).blk t).view.read (Elt Ideal) (W (Pipeline.arrRef spec0 1)))
    (((cfg0.win 2).blk t).view.read (Elt Ideal) (W (Pipeline.arrRef spec0 2)))
    (((cfg0.win 3).blk t).view.read (Elt Ideal) (W (Pipeline.arrRef spec0 3)))
    (((cfg0.win 4).blk t).view.read (Elt Ideal) (W (Pipeline.arrRef spec0 4)))
    ((cfg0.win 0).blk t).view.emb ((cfg0.win 1).blk t).view.emb ((cfg0.win 2).blk t).view.emb ((cfg0.win 5).blk t).view.emb
    (fun _ => rfl) (fun _ => rfl) (fun _ => rfl) h3 h4 (win0_5.index t (0 : Fin 4)) (win0_5.index t (1 : Fin 4))
    (fun y => ⟨by show win0_0.index t (0 : Fin 3) * 1 + 1 * (y 0).val = _; have h : (y 0).val < 1 := (y 0).isLt; omega,
      by show win0_0.index t (1 : Fin 3) * 1024 + 1 * (y 1).val = _; omega,
      by show win0_0.index t (2 : Fin 3) * 2 + 1 * (y 2).val = _; omega⟩)
    (fun y => ⟨by show win0_1.index t (0 : Fin 4) * 1 + 1 * (y 0).val = _; have h : (y 0).val < 1 := (y 0).isLt; omega,
      by show win0_1.index t (1 : Fin 4) * 1024 + 1 * (y 1).val = _; omega,
      by show win0_1.index t (2 : Fin 4) * 8 + 1 * (y 2).val = _; omega,
      by show win0_1.index t (3 : Fin 4) * 2 + 1 * (y 3).val = _; omega⟩)
    (fun y => ⟨by show win0_2.index t (0 : Fin 4) * 1 + 1 * (y 0).val = _; have h : (y 0).val < 1 := (y 0).isLt; omega,
      by show win0_2.index t (1 : Fin 4) * 1024 + 1 * (y 1).val = _; omega,
      by show win0_2.index t (2 : Fin 4) * 8 + 1 * (y 2).val = _; omega,
      by show win0_2.index t (3 : Fin 4) * 32 + 1 * (y 3).val = _; omega⟩)
    (fun y => ⟨by show win0_5.index t (0 : Fin 4) * 1 + 1 * (y 0).val = _; have h : (y 0).val < 1 := (y 0).isLt; omega,
      by show win0_5.index t (1 : Fin 4) * 1024 + 1 * (y 1).val = _; omega,
      by show win0_5.index t (2 : Fin 4) * 8 + 1 * (y 2).val = _; omega,
      by show win0_5.index t (3 : Fin 4) * 64 + 1 * (y 3).val = _; omega⟩)
    y

/-- An index of the result array is in point `t`'s block iff each coordinate is in the block's range on its axis. -/
theorem mem_blk (t : Fin cfg0.N) (i : S4x65536x8x64.Idx) :
    i ∈ ((cfg0.win 5).blk t).view.set ↔ ∀ a : Fin 4, win0_5.index t a * S1x1024x8x64.size a ≤ (i a).val
      ∧ (i a).val < win0_5.index t a * S1x1024x8x64.size a + S1x1024x8x64.size a := by
  show i ∈ ((View.whole main_v32).slice (win0_5.rect t)).set ↔ _
  rw [View.set_slice_whole, Rect.mem_set_unit]
  exact Iff.rfl

/-- Every index of the result array is in some grid point's block. -/
theorem cover (i : S4x65536x8x64.Idx) :
    ∃ t : Fin cfg0.N, (cfg0.win 5).flush t = true ∧ i ∈ ((cfg0.win 5).blk t).view.set := by
  have hi0 : (i 0).val < 4 := (i 0).isLt
  have hi1 : (i 1).val < 65536 := (i 1).isLt
  have hi2 : (i 2).val < 8 := (i 2).isLt
  have hi3 : (i 3).val < 64 := (i 3).isLt
  obtain ⟨t, ht⟩ := idx_onto ⟨(i 0).val, hi0⟩ ⟨(i 1).val / 1024, by omega⟩
  have q0 : win0_5.index t (0 : Fin 4) = (i 0).val := congrFun ht 0
  have q1 : win0_5.index t (1 : Fin 4) = (i 1).val / 1024 := congrFun ht 1
  have q2 : win0_5.index t (2 : Fin 4) = 0 := congrFun ht 2
  have q3 : win0_5.index t (3 : Fin 4) = 0 := congrFun ht 3
  refine ⟨t, flush0_5 t, ?_⟩
  rw [mem_blk]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 1024 ≤ (i 1).val ∧ (i 1).val < win0_5.index t (1 : Fin 4) * 1024 + 1024; omega
  | ⟨2, _⟩ => show win0_5.index t (2 : Fin 4) * 8 ≤ (i 2).val ∧ (i 2).val < win0_5.index t (2 : Fin 4) * 8 + 8; omega
  | ⟨3, _⟩ => show win0_5.index t (3 : Fin 4) * 64 ≤ (i 3).val ∧ (i 3).val < win0_5.index t (3 : Fin 4) * 64 + 64; omega

/-- THE RESULT ARRAY after the run is the specification. -/
theorem final (c : Dev nD) : (dats m 0 c).arrAt 5 cfg0.N = GV m c :=
  (dats m 0 c).arrAt_eq_of_cover 5 (GV m c) (fun t _ => flushed_eq m c t) cover

/-- The frame run re-posted: the result array at the specification of the launch contents of the point cloud, the
    weights and the bias and of the two gathered arrays; the arguments unchanged. -/
theorem run : θ_run defs (onTc (τ := τ) (main (F := Ideal))) ⟨m, fun _ => 0, ρ⟩ fun r => ∀ c : Dev nD,
      r.2.mem ((c : Thread nD τ).loc main_v32)
        = G (m ((c : Thread nD τ).loc main_arg0)) (V m c main_v16) (V m c main_v31)
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final m c).trans (by
      show G (V m c main_arg0) (V m c main_v16) (V m c main_v31) (V m c main_arg3) (V m c main_arg4) = _
      rw [V_main_arg0, V_main_arg3, V_main_arg4])), (h c).2⟩)
    (Cert.KernelIdeal.Value.run_blocks m ρ)

end Cert.LocSE.Kernel

end
-- ==== Proof.LibCatArgs.lean ====
/-
  Concatenations with their operands as plain arguments.

  `concatenate t a [⟨s₁, x₁⟩, …] h` keeps its operands inside a list of (shape, array) pairs. `cat2` and `cat4` are the
  same arrays with the operands as ordinary arguments, so that an equation about one operand can be used in place;
  each is its `concatenate` by definition.
-/
import Idealize.ShloMosaic.PureOps

namespace Cert.Lib

open Idealize.ShloMosaic

/-- The concatenation of two arrays along axis `a`, the arrays as arguments. -/
def cat2 {α : Type} (t : Shape) (a : Fin t.rank) (s1 s2 : Shape) (h : Shape.Concatenates [s1, s2] t a)
    (x1 : s1.Idx → α) (x2 : s2.Idx → α) : t.Idx → α := concatenate t a [⟨s1, x1⟩, ⟨s2, x2⟩] h

/-- A two-operand `concatenate` is `cat2` of its operands. -/
theorem cat2_eq {α : Type} (t : Shape) (a : Fin t.rank) (s1 s2 : Shape) (h : Shape.Concatenates [s1, s2] t a)
    (x1 : s1.Idx → α) (x2 : s2.Idx → α) : concatenate t a [⟨s1, x1⟩, ⟨s2, x2⟩] h = cat2 t a s1 s2 h x1 x2 := rfl

/-- The concatenation of four arrays along axis `a`, the arrays as arguments. -/
def cat4 {α : Type} (t : Shape) (a : Fin t.rank) (s1 s2 s3 s4 : Shape) (h : Shape.Concatenates [s1, s2, s3, s4] t a)
    (x1 : s1.Idx → α) (x2 : s2.Idx → α) (x3 : s3.Idx → α) (x4 : s4.Idx → α) : t.Idx → α :=
  concatenate t a [⟨s1, x1⟩, ⟨s2, x2⟩, ⟨s3, x3⟩, ⟨s4, x4⟩] h

/-- A four-operand `concatenate` is `cat4` of its operands. -/
theorem cat4_eq {α : Type} (t : Shape) (a : Fin t.rank) (s1 s2 s3 s4 : Shape) (h : Shape.Concatenates [s1, s2, s3, s4] t a)
    (x1 : s1.Idx → α) (x2 : s2.Idx → α) (x3 : s3.Idx → α) (x4 : s4.Idx → α) :
    concatenate t a [⟨s1, x1⟩, ⟨s2, x2⟩, ⟨s3, x3⟩, ⟨s4, x4⟩] h = cat4 t a s1 s2 s3 s4 h x1 x2 x3 x4 := rfl

end Cert.Lib
-- ==== Proof.Glue.lean ====
/-
  The two gathered arrays the kernel's region finds are the reference's.

  Before the region the kernel's @main computes the neighbours' coordinates and features with the very operations the
  reference uses: the batch index from an iota, negative indices wrapped by adding the extent, the two joined into
  index pairs, and the gather. Reading the host operations back, each of the two buffers holds the reference's stage
  of the same launch contents of the point cloud (or the features) and the neighbour indices.
-/
import proofs.«136591_j64707977282331_1_alg».proof.Proof.Gen.KernelIdeal.Frame
import proofs.«136591_j64707977282331_1_alg».proof.Proof.RefRead
import Idealize.ShloMosaic.Lib.StableHlo.Run
import Idealize.ShloMosaic.PureOps.Ideal

noncomputable section

namespace Cert.LocSE.Kernel

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

set_option maxRecDepth 8192 in
/-- The neighbours' coordinates as the region finds them. -/
theorem gathered_points (c : Dev nD) :
    V m c main_v16 = Cert.ReferenceIdeal.ReadP.val_main_v16 (F := Ideal)
      (m ((c : Thread nD τ).loc main_arg0)) (m ((c : Thread nD τ).loc main_arg2)) := by
  refine (?read : StableHlo.after hostOps0 (fun b => m (c, b)) (Proc.devRef .tc main_v16) = ?term).trans ?same
  case read =>
    dsimp only [hostOps0]
    after_results
  case same => rfl

set_option maxRecDepth 8192 in
/-- The neighbours' features as the region finds them. -/
theorem gathered_feats (c : Dev nD) :
    V m c main_v31 = Cert.ReferenceIdeal.ReadP.val_main_v33 (F := Ideal)
      (m ((c : Thread nD τ).loc main_arg1)) (m ((c : Thread nD τ).loc main_arg2)) := by
  refine (?read : StableHlo.after hostOps0 (fun b => m (c, b)) (Proc.devRef .tc main_v31) = ?term).trans ?same
  case read =>
    dsimp only [hostOps0]
    after_results
  case same => rfl

end Cert.LocSE.Kernel

end
-- ==== Proof.RefValue.lean ====
/-
  The reference, one entry at a time, is the specification.

  The reference works on whole arrays. Its neighbour coordinates and features are the gathers `val_main_v16` and
  `val_main_v33`; here they are only named, never opened. Entry `(b, n, k, ·)` of its seven-channel array is the
  encoding of point `(b, n)` and its neighbour `k`: the point broadcast along the neighbour axis, the gathered
  neighbour, their difference, and the square root of the host's two-term sum of squares (which starts from the zero
  word, the additive identity). The einsum is the seven-term sum against a column of the weights, the bias is broadcast
  along the three leading axes, and the rectifier is the maximum with the zero word.
-/
import proofs.«136591_j64707977282331_1_alg».proof.Proof.RefRead
import proofs.«136591_j64707977282331_1_alg».proof.Proof.Spec

noncomputable section

namespace Cert.LocSE.Ref

open Cert.ReferenceIdeal Cert.ReferenceIdeal.Gen Cert.ReferenceIdeal.ReadP Idealize.ShloMosaic Idealize.ShloMosaic.ValueIdx Cert.LocSE

variable (x0 : (⟨S4x65536x2, .f32⟩ : BufTy).Contents (Elt Ideal)) (x1 : (⟨S4x65536x32, .f32⟩ : BufTy).Contents (Elt Ideal))
  (x2 : (⟨S4x65536x8, .i32⟩ : BufTy).Contents (Elt Ideal)) (x3 : (⟨S7x32, .f32⟩ : BufTy).Contents (Elt Ideal))
  (x4 : (⟨S32, .f32⟩ : BufTy).Contents (Elt Ideal))

/-- Point `(b, n)`. -/
abbrev P (b : Fin 4) (n : Fin 65536) : Fin 2 → EReal := fun d => x0 (ix3 b n d)
/-- Its gathered neighbour `k`. -/
abbrev Q (b : Fin 4) (n : Fin 65536) (k : Fin 8) : Fin 2 → EReal := fun d => val_main_v16 (F := Ideal) x0 x2 (ix4 b n k d)

theorem kpc_apply (b : Fin 4) (n : Fin 65536) (k : Fin 8) (d : Fin 2) :
    val_main_v35 (F := Ideal) x0 (ix4 b n k d) = x0 (ix3 b n d) := by
  rw [val_main_v35_apply, val_main_v34_apply]
  exact congrArg x0 (funext fun a => Fin.ext (by match a with | ⟨0, _⟩ => rfl | ⟨1, _⟩ => rfl | ⟨2, _⟩ => rfl))

theorem relp_apply (b : Fin 4) (n : Fin 65536) (k : Fin 8) (d : Fin 2) :
    val_main_v36 (F := Ideal) x0 x2 (ix4 b n k d) = P x0 b n d - Q x0 x2 b n k d := by
  rw [val_main_v36_apply, kpc_apply]
  rfl

theorem norms_apply (b : Fin 4) (n : Fin 65536) (k : Fin 8) :
    val_main_v37 (F := Ideal) x0 x2 (ix4 b n k 0) = Ideal.sqrt (sqLen (P x0 b n) (Q x0 x2 b n k)) := by
  rw [val_main_v37_apply, val_main_call0_v2_apply, val_main_call0_v1_apply, val_main_call0_cst_apply, Ideal.hostUnary_sqrt_def]
  refine congrArg Ideal.sqrt ?_
  show Ideal.ofBits .f32 0x00000000#32 + _ = _
  rw [Ideal.ofBits_zero_f32, zero_add]
  unfold sqLen
  refine Finset.sum_congr rfl fun d _ => ?_
  have e : idx_main_call0_v1 (idx_main_call0_v2 (ix4 b n k 0)) d = ix4 b n k d :=
    funext fun a => Fin.ext (by match a with | ⟨0, _⟩ => rfl | ⟨1, _⟩ => rfl | ⟨2, _⟩ => rfl | ⟨3, _⟩ => rfl)
  rw [e, val_main_call0_v0_apply, relp_apply]
  rfl

theorem rppe_apply (b : Fin 4) (n : Fin 65536) (k : Fin 8) (c : Fin 7) :
    val_main_v38 (F := Ideal) x0 x2 (ix4 b n k c) = enc (P x0 b n) (Q x0 x2 b n k) c := by
  unfold val_main_v38 enc
  by_cases h1 : c.val < 2
  · rw [dif_pos h1]
    exact (concatenate_apply_piece (t := S4x65536x8x7) 3 _ _ (ix4 b n k c) 0 (by show (0 : Nat) < 4; omega) S4x65536x8x2 (val_main_v35 (F := Ideal) x0) rfl rfl 0 rfl
      (ix4 b n k ⟨c.val, h1⟩)
      (fun a ha => by match a with | ⟨0, _⟩ => rfl | ⟨1, _⟩ => rfl | ⟨2, _⟩ => rfl | ⟨3, _⟩ => exact absurd rfl ha)
      (by show 0 + c.val = c.val; omega)).trans (kpc_apply x0 b n k ⟨c.val, h1⟩)
  · rw [dif_neg h1]
    by_cases h2 : c.val < 4
    · rw [dif_pos h2]
      exact concatenate_apply_piece (t := S4x65536x8x7) 3 _ _ (ix4 b n k c) 1 (by show (1 : Nat) < 4; omega) S4x65536x8x2 (val_main_v16 (F := Ideal) x0 x2) rfl rfl 2 rfl
        (ix4 b n k ⟨c.val - 2, by omega⟩)
        (fun a ha => by match a with | ⟨0, _⟩ => rfl | ⟨1, _⟩ => rfl | ⟨2, _⟩ => rfl | ⟨3, _⟩ => exact absurd rfl ha)
        (by show 2 + (c.val - 2) = c.val; omega)
    · rw [dif_neg h2]
      by_cases h3 : c.val < 6
      · rw [dif_pos h3]
        exact (concatenate_apply_piece (t := S4x65536x8x7) 3 _ _ (ix4 b n k c) 2 (by show (2 : Nat) < 4; omega) S4x65536x8x2 (val_main_v36 (F := Ideal) x0 x2) rfl rfl 4 rfl
          (ix4 b n k ⟨c.val - 4, by omega⟩)
          (fun a ha => by match a with | ⟨0, _⟩ => rfl | ⟨1, _⟩ => rfl | ⟨2, _⟩ => rfl | ⟨3, _⟩ => exact absurd rfl ha)
          (by show 4 + (c.val - 4) = c.val; omega)).trans (relp_apply x0 x2 b n k ⟨c.val - 4, by omega⟩)
      · rw [dif_neg h3]
        have hc : c.val < 7 := c.isLt
        exact (concatenate_apply_piece (t := S4x65536x8x7) 3 _ _ (ix4 b n k c) 3 (by show (3 : Nat) < 4; omega) S4x65536x8x1 (val_main_v37 (F := Ideal) x0 x2) rfl rfl 6 rfl
          (ix4 b n k 0)
          (fun a ha => by match a with | ⟨0, _⟩ => rfl | ⟨1, _⟩ => rfl | ⟨2, _⟩ => rfl | ⟨3, _⟩ => exact absurd rfl ha)
          (by show 6 + (0 : Nat) = c.val; omega)).trans (norms_apply x0 x2 b n k)

theorem act_apply (b : Fin 4) (n : Fin 65536) (k : Fin 8) (f : Fin 32) :
    val_main_v43 (F := Ideal) x0 x2 x3 x4 (ix4 b n k f)
      = mlp (P x0 b n) (Q x0 x2 b n k) (fun c => x3 (ix2 c f)) (x4 (ix1 f)) := by
  rw [val_main_v43_apply, val_main_v42_apply, val_main_v39_apply, val_main_v41_apply, val_main_v40_apply,
    val_main_call1_v0_apply, val_main_call1_cst_apply]
  have el : ∀ c : Fin 7, lidx_main_v39 (ix4 b n k f) c = ix4 b n k c := fun c =>
    funext fun a => Fin.ext (by match a with | ⟨0, _⟩ => rfl | ⟨1, _⟩ => rfl | ⟨2, _⟩ => rfl | ⟨3, _⟩ => rfl)
  have er : ∀ c : Fin 7, ridx_main_v39 (ix4 b n k f) c = ix2 c f := fun c =>
    funext fun a => Fin.ext (by match a with | ⟨0, _⟩ => rfl | ⟨1, _⟩ => rfl)
  have eb : idx_main_v40 (idx_main_v41 (ix4 b n k f)) = ix1 f :=
    funext fun a => Fin.ext (by match a with | ⟨0, _⟩ => rfl)
  simp only [el, er, eb, rppe_apply]
  rfl

/-- THE REFERENCE IS THE SPECIFICATION, of the arguments and of its own two gathers. -/
theorem result_eq :
    val_main_v44 (F := Ideal) x0 x1 x2 x3 x4
      = G x0 (val_main_v16 (F := Ideal) x0 x2) (val_main_v33 (F := Ideal) x1 x2) x3 x4 := by
  funext j
  unfold val_main_v44 G
  by_cases h : (j 3).val < 32
  · rw [dif_pos h]
    exact concatenate_pair_apply_left (t := S4x65536x8x64) (s₁ := S4x65536x8x32) (s₂ := S4x65536x8x32) 3 (val_main_v33 (F := Ideal) x1 x2) (val_main_v43 (F := Ideal) x0 x2 x3 x4) _ j rfl (ix4 (j 0) (j 1) (j 2) ⟨(j 3).val, h⟩)
      (fun a => by match a with | ⟨0, _⟩ => rfl | ⟨1, _⟩ => rfl | ⟨2, _⟩ => rfl | ⟨3, _⟩ => rfl)
  · rw [dif_neg h]
    have h64 : (j 3).val < 64 := (j 3).isLt
    exact (concatenate_pair_apply_right (t := S4x65536x8x64) (s₁ := S4x65536x8x32) (s₂ := S4x65536x8x32) 3 (val_main_v33 (F := Ideal) x1 x2) (val_main_v43 (F := Ideal) x0 x2 x3 x4) _ j rfl rfl (ix4 (j 0) (j 1) (j 2) ⟨(j 3).val - 32, by omega⟩)
      (fun a ha => by match a with | ⟨0, _⟩ => rfl | ⟨1, _⟩ => rfl | ⟨2, _⟩ => rfl | ⟨3, _⟩ => exact absurd rfl ha)
      (by show (j 3).val - 32 + 32 = (j 3).val; omega)).trans
      (act_apply x0 x2 x3 x4 (j 0) (j 1) (j 2) ⟨(j 3).val - 32, by omega⟩)

end Cert.LocSE.Ref

end
-- ==== Proof.lean ====
/-
  The kernel and its reference compute one function.

  The kernel gathers, on the host, the coordinates and the features of every point's eight neighbours and hands them
  with the point cloud, the weights and the bias to one region; the region writes, block by block, for each (point,
  neighbour) pair the neighbour's 32 features followed by the 32 rectified outputs of a pointwise affine layer on the
  pair's seven-channel relative-position encoding (point, neighbour, difference, length of the difference). The
  reference does the same on whole arrays. Over the extended reals both result arrays are the one function `G`
  (Proof/Spec.lean) of the point cloud, the two gathered arrays, the weights and the bias:
  * the kernel's result array is `G` of the arrays its region finds (Proof/KValue.lean, over the stages of the body
    read entry by entry in Proof/KRead.lean and the blocks laid out in Proof/KBlock.lean);
  * the two gathered arrays it finds are the reference's two gathers of the same arguments (Proof/Glue.lean);
  * the reference's result is `G` of the arguments and of its two gathers (Proof/RefValue.lean).
  The changes of float format are the identity there, the product into a zero accumulator and the host's contraction
  are the same seven-term sum, and the lane sum and the host's sum from zero are the same two-term sum; no step needs
  the entries to be finite, so the precondition is never opened. The three frames are the generated frame runs; the
  idealization rewrote nothing, so `preserves` is trivial.
-/
import proofs.«136591_j64707977282331_1_alg».proof.Defs
import proofs.«136591_j64707977282331_1_alg».proof.Proof.Gen.Kernel
import proofs.«136591_j64707977282331_1_alg».proof.Proof.Gen.Kernel.Skeleton
import proofs.«136591_j64707977282331_1_alg».proof.Proof.Gen.Kernel.Launch
import proofs.«136591_j64707977282331_1_alg».proof.Proof.Gen.Kernel.Points
import proofs.«136591_j64707977282331_1_alg».proof.Proof.Gen.Kernel.Frame
import proofs.«136591_j64707977282331_1_alg».proof.Proof.Gen.KernelIdeal
import proofs.«136591_j64707977282331_1_alg».proof.Proof.Gen.KernelIdeal.Skeleton
import proofs.«136591_j64707977282331_1_alg».proof.Proof.Gen.KernelIdeal.Launch
import proofs.«136591_j64707977282331_1_alg».proof.Proof.Gen.KernelIdeal.Points
import proofs.«136591_j64707977282331_1_alg».proof.Proof.Gen.KernelIdeal.Frame
import proofs.«136591_j64707977282331_1_alg».proof.Proof.Gen.ReferenceIdeal
import proofs.«136591_j64707977282331_1_alg».proof.Proof.Gen.Pre_finite_inputs
import proofs.«136591_j64707977282331_1_alg».proof.Proof.Gen.KernelIdeal.Value
import proofs.«136591_j64707977282331_1_alg».proof.Proof.KValue
import proofs.«136591_j64707977282331_1_alg».proof.Proof.Glue
import proofs.«136591_j64707977282331_1_alg».proof.Proof.RefValue
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference has no region: its frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- Both runs end with the result at `G` of the kernel's arguments and of the reference's two gathers of them. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.LocSE.G (m ((c.tc : Thread Cert.KernelIdeal.nD Cert.KernelIdeal.τ).loc Cert.KernelIdeal.main_arg0))
      (Cert.ReferenceIdeal.ReadP.val_main_v16 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg2)))
      (Cert.ReferenceIdeal.ReadP.val_main_v33 (F := Ideal)
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun _ h c => ⟨(h c).1.trans ?_, (h c).2⟩) (Cert.LocSE.Kernel.run m ρ)
    rw [Cert.LocSE.Kernel.gathered_points m c, Cert.LocSE.Kernel.gathered_feats m c]
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v44_eq, Cert.LocSE.Ref.result_eq, (hagree c).1, (hagree c).2.1, (hagree c).2.2.1,
      (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
